-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_arg12 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg8 : FVec F S128 .f32) (main_arg9 : FVec F S128x128 .f32) (main_arg10 : FVec F S128x128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_v33

def fn {F : FTy → Type} [FloatOps F] (main_arg0 : FVec F S50000x128 .f32) (main_arg1 : IVec S600000 32) (main_arg2 : IVec S600000 32) (main_arg3 : FVec F S600000 .f32) (main_arg4 : IVec S600000 32) (main_arg5 : IVec S600000 32) (main_arg6 : FVec F S600000 .f32) (main_arg7 : FVec F S128x128 .f32) (main_arg8 : FVec F S128 .f32) (main_arg9 : FVec F S128x128 .f32) (main_arg10 : FVec F S128x128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S600000 .f32 := Host.absf main_arg6
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 52
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S600000, .i32⟩
  | .hbm, ⟨5, _⟩ => ⟨S600000, .i32⟩
  | .hbm, ⟨6, _⟩ => ⟨S600000, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S600000x1, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S600000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S600000, .i32⟩
  | .hbm, ⟨5, _⟩ => ⟨S600000, .i32⟩
  | .hbm, ⟨6, _⟩ => ⟨S600000, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S600000x1, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S600000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S128x128, .f32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call0_cst : Ref sig .tc := ⟨.hbm, 85, rfl⟩
abbrev main_call0_v0 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One layer of directed message passing, its dense stage, as a function of one node's row.

  For a node the layer forms a vector of 128 entries: the node's own features times the self weights, plus its
  two aggregated neighbourhoods (edges in, edges out) times their weights, plus a bias.  The vector is then
  normalised over its 128 entries: the mean is taken off, the result is divided by the root of the variance plus
  a small constant, scaled entry by entry, shifted entry by entry, and clipped below at zero.  Row r of the three
  feature arrays is all that enters row r of the result; the weights, the bias, the scale and the shift are
  shared by every row.

  The four summands of the vector may be added with the bias last or with the bias second: addition of extended
  reals is commutative and associative whatever the summands are, so the two groupings agree with no assumption
  on the entries.
-/
import Idealize.ShloMosaic.PureOps.Ideal
import Idealize.ShloMosaic.Lib.ValueIdx

noncomputable section

namespace Cert.Layer

open Idealize.ShloMosaic Idealize.ShloMosaic.ValueIdx

/-- The number of entries of a row, as the float both programs divide by. -/
abbrev width : EReal := Ideal.ofBits .f32 0x43000000#32

/-- The constant added to the variance under the root. -/
abbrev eps : EReal := Ideal.ofBits .f32 0x3727C5AC#32

/-- The level the result is clipped at. -/
abbrev level : EReal := Ideal.ofBits .f32 0x00000000#32

/-- The row before normalisation, the bias added last: features by self weights, then the two neighbourhoods
    by theirs, then the bias. -/
def affine (x a b : Fin 128 → EReal) (ws wi wo : Fin 128 → Fin 128 → EReal) (bias : Fin 128 → EReal)
    (j : Fin 128) : EReal :=
  (∑ k, x k * ws k j + ∑ k, a k * wi k j + ∑ k, b k * wo k j) + bias j

/-- The same row with the bias added second. -/
def affineBiasSecond (x a b : Fin 128 → EReal) (ws wi wo : Fin 128 → Fin 128 → EReal) (bias : Fin 128 → EReal)
    (j : Fin 128) : EReal :=
  ((∑ k, x k * ws k j + bias j) + ∑ k, a k * wi k j) + ∑ k, b k * wo k j

/-- The two groupings are one sum. -/
theorem affineBiasSecond_eq (x a b : Fin 128 → EReal) (ws wi wo : Fin 128 → Fin 128 → EReal) (bias : Fin 128 → EReal) :
    affineBiasSecond x a b ws wi wo bias = affine x a b ws wi wo bias := by
  funext j
  unfold affineBiasSecond affine
  rw [add_right_comm (∑ k, x k * ws k j) (bias j) (∑ k, a k * wi k j),
    add_right_comm (∑ k, x k * ws k j + ∑ k, a k * wi k j) (bias j) (∑ k, b k * wo k j)]

/-- The mean of a row. -/
def mean (h : Fin 128 → EReal) : EReal := Ideal.div (∑ k, h k) width

/-- A row with its mean taken off. -/
def centred (h : Fin 128 → EReal) (j : Fin 128) : EReal := h j - mean h

/-- The variance of a row: the mean of the squares of the centred row. -/
def variance (h : Fin 128 → EReal) : EReal := Ideal.div (∑ k, centred h k * centred h k) width

/-- The normalised row, scaled by `g`, shifted by `s`, clipped below. -/
def normClip (h g s : Fin 128 → EReal) (j : Fin 128) : EReal :=
  max (centred h j * Ideal.rsqrt (variance h + eps) * g j + s j) level

/-- The layer's dense stage on whole arrays: entry (r, j) of the result from row r of the features `X` and of
    the two aggregates `A`, `B`, the three weight matrices read rows-by-columns, and the three shared rows. -/
def out (X A B : (⟨2, ![50000, 128]⟩ : Shape).Idx → EReal) (Ws Wi Wo : (⟨2, ![128, 128]⟩ : Shape).Idx → EReal)
    (bias g s : Fin 128 → EReal) : (⟨2, ![50000, 128]⟩ : Shape).Idx → EReal := fun i =>
  normClip (affine (fun k => X (ix2 (i 0) k)) (fun k => A (ix2 (i 0) k)) (fun k => B (ix2 (i 0) k))
      (fun k j => Ws (ix2 k j)) (fun k j => Wi (ix2 k j)) (fun k j => Wo (ix2 k j)) bias) g s (i 1)

end Cert.Layer

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.KernelRow.lean ====
/-
  What the kernel's body computes for one row of its block.

  The body works on a block of 2000 rows.  Entry (p, q) of what it stores depends on row p of the three feature
  blocks only: the three products with the weight matrices are sums over the 128 columns of row p, the bias,
  scale and shift rows are read at column q, and the two means (of the row, and of the squares of the centred
  row) are sums over the row's 128 entries.  So entry (p, q) is the layer's row function of row p, at q.
  A change of float format is the identity on the extended reals, which is why the narrowed operands of the
  products read as the loaded blocks themselves.
-/
import proofs.«152484_j65807488909810_1_alg».proof.Proof.Gen.KernelIdeal.Skeleton
import proofs.«152484_j65807488909810_1_alg».proof.Proof.Spec
import proofs.«152484_j65807488909810_1_alg».proof.Proof.LibPlainDot
import proofs.«152484_j65807488909810_1_alg».proof.Proof.LibColumnBroadcast
import proofs.«152484_j65807488909810_1_alg».proof.Proof.LibColumnCast
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx Cert.Layer

/-- The body's matrix products are rows-by-columns: left operand contracted on its columns, right on its rows. -/
theorem dot_plain : dot_S2000x128_S128x128_S2000x128_1_0_0_1_n_n = DotDims.plain 2000 128 128 := rfl

/-- A product into the zero accumulator, at (p, q): the sum over k of left (p, k) times right (k, q). -/
theorem product_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  rw [dot_plain]
  exact plain_matmul_zero_apply none l r (ix2 p q)

/-- The sum along a row of a block, at row p. -/
theorem rowSum_apply (v : FVec Ideal S2000x128 .f32) (hφ : FTy.f32 = FTy.f32 ∨ FTy.f32 = FTy.bf16)
    (hacc : (0x00000000#32 : BitVec 32) = 0x00000000#32) (p : Fin 2000) :
    multiReduction .add [1] S2000 v 0x00000000#32 reduces_S2000x128_S2000 hφ hacc (ix1 p)
      = ∑ k : Fin 128, v (ix2 p k) := by
  refine (Ideal.multiReduction_add_single v 0x00000000#32 reduces_S2000x128_S2000 hφ hacc (ix1 p)).trans ?_
  exact Finset.sum_congr rfl fun k _ => congrArg v (funext fun a => Fin.ext (by
    match a with
    | ⟨0, _⟩ => rfl
    | ⟨1, _⟩ => rfl))

/-- The centred row: the body's value before the variance, at (p, q). -/
theorem centred_apply (v0 v2 v5 : Vec Ideal S2000x128 .f32) (v8 v11 v14 : Vec Ideal S128x128 .f32)
    (v22 : Vec Ideal S1x128 .f32) (p : Fin 2000) (q : Fin 128) :
    k0_pay2 (F := Ideal) v0 v2 v5 v8 v11 v14 v22 (ix2 p q)
      = centred (affine (fun k => v0 (ix2 p k)) (fun k => v2 (ix2 p k)) (fun k => v5 (ix2 p k))
          (fun k j => v8 (ix2 k j)) (fun k j => v11 (ix2 k j)) (fun k j => v14 (ix2 k j))
          (fun j => v22 (ix2 (0 : Fin 1) j))) q := by
  unfold k0_pay2 centred mean affine
  simp only [subf_apply, addf_apply, divf_apply, broadcastTo_a1_ab_apply, shapeCast_a_a1_apply,
    broadcast_apply, product_apply, truncf_apply, shapeCast_self, broadcastTo_1b_ab_apply]
  rw [rowSum_apply]
  simp only [addf_apply, product_apply, truncf_apply, shapeCast_self, broadcastTo_1b_ab_apply]
  rfl

/-- The variance of row p, as the body's column of variances holds it at (p, 0). -/
theorem variance_apply (v0 v2 v5 : Vec Ideal S2000x128 .f32) (v8 v11 v14 : Vec Ideal S128x128 .f32)
    (v22 : Vec Ideal S1x128 .f32) (p : Fin 2000) (u : Fin 1) :
    k0_pay3 (F := Ideal) v0 v2 v5 v8 v11 v14 v22 (ix2 p u)
      = variance (affine (fun k => v0 (ix2 p k)) (fun k => v2 (ix2 p k)) (fun k => v5 (ix2 p k))
          (fun k j => v8 (ix2 k j)) (fun k j => v11 (ix2 k j)) (fun k j => v14 (ix2 k j))
          (fun j => v22 (ix2 (0 : Fin 1) j))) := by
  unfold k0_pay3 variance
  simp only [divf_apply, shapeCast_a_a1_apply, broadcast_apply]
  rw [rowSum_apply]
  simp only [mulf_apply, centred_apply]
  rfl

/-- The reciprocal root, entry by entry. -/
theorem rsqrt_apply {s : Shape} {φ : FTy} (x : FVec Ideal s φ) (i : s.Idx) : rsqrt x i = Ideal.rsqrt (x i) := rfl

/-- What the body stores at (p, q) from a centred block `d`, a column of variances `w`, the constant under the
    root, and the scale and shift rows: the centred entry times the reciprocal root of row p's variance plus
    the constant, scaled and shifted at column q, clipped below. -/
theorem stored_apply (d : FVec Ideal S2000x128 .f32) (w : FVec Ideal S2000x1 .f32) (e : Ideal .f32)
    (g s : Vec Ideal S1x128 .f32) (p : Fin 2000) (q : Fin 128) :
    k0_pay1 (F := Ideal) d w e g s (ix2 p q)
      = max (d (ix2 p q) * Ideal.rsqrt (w (ix2 p (0 : Fin 1)) + e) * g (ix2 (0 : Fin 1) q) + s (ix2 (0 : Fin 1) q))
          (Ideal.ofBits .f32 0x00000000#32) := by
  unfold k0_pay1
  simp only [maximumf_apply, addf_apply, mulf_apply, broadcastTo_1b_ab_apply, broadcastTo_a1_ab_apply, shapeCast_self,
    broadcast_apply, rsqrt_apply]
  rfl

/-- The body's stored value at (p, q) is the layer's row function of row p of the three feature blocks, the weight
    blocks read rows-by-columns and the three shared rows, at q. -/
theorem body_apply (x0 x1 x2 : Vec Ideal S2000x128 .f32) (x3 x4 x5 : Vec Ideal S128x128 .f32)
    (x6 x7 x8 : Vec Ideal S1x128 .f32) (p : Fin 2000) (q : Fin 128) :
    k0_pay1 (F := Ideal) (k0_pay2 x0 x1 x2 x3 x4 x5 x6) (k0_pay3 x0 x1 x2 x3 x4 x5 x6) (Scalar.ofBits .f32 0x3727C5AC#32) x7 x8 (ix2 p q)
      = normClip (affine (fun k => x0 (ix2 p k)) (fun k => x1 (ix2 p k)) (fun k => x2 (ix2 p k))
          (fun k j => x3 (ix2 k j)) (fun k j => x4 (ix2 k j)) (fun k j => x5 (ix2 k j))
          (fun j => x6 (ix2 (0 : Fin 1) j))) (fun j => x7 (ix2 (0 : Fin 1) j)) (fun j => x8 (ix2 (0 : Fin 1) j)) q := by
  rw [stored_apply, centred_apply, variance_apply]
  rfl

end Cert.KernelIdeal.Row

end
-- ==== Proof.KernelArray.lean ====
/-
  From the kernel's blocks to its whole result array.

  The grid has 25 points.  Point t works on rows 2000·t … 2000·t + 1999 of the three feature arrays and writes the
  same rows of the result; the three weight matrices and the three shared rows are staged whole at every point.
  So what point t writes back is block t of the layer's function of the arrays as the region finds them, and the
  25 blocks of 2000 rows fill the 50000 rows: the result array ends holding that function everywhere.
-/
import proofs.«152484_j65807488909810_1_alg».proof.Proof.Gen.KernelIdeal.Value
import proofs.«152484_j65807488909810_1_alg».proof.Proof.KernelRow

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The printed block index maps over the grid: the three feature windows and the result window are at block
    (t, 0) at point t, the weight and shared-row windows at block (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of point t's block is row 2000·t + p of the arrays. -/
def row (t : Fin cfg0.N) (p : Fin 2000) : Fin 50000 :=
  ⟨t.val * 2000 + p.val, by
    have h : t.val < 25 := Nat.lt_of_lt_of_eq t.isLt N_0
    have := p.isLt
    omega⟩

/-- Point t's block of any array staged through feature window 0, at (p, k), is the array's entry (2000·t + p, k). -/
theorem feat0_read_of (c : Dev nD) (A : Buf (Elt Ideal) ((c : Thread nD τ).loc main_arg0)) (t : Fin cfg0.N) (p : Fin 2000) (k : Fin 128) :
    (((cfg0.win 0).blk t).view.read (Elt Ideal) A : S2000x128.Idx → EReal) (ix2 p k)
      = (A : S50000x128.Idx → EReal) (ix2 (row t p) k) := by
  have e0 : win0_0.index t (0 : Fin 2) = t.val := (idx_facts t).1
  have e1 : win0_0.index t (1 : Fin 2) = 0 := (idx_facts t).2.1
  show (A : S50000x128.Idx → EReal) (((cfg0.win 0).blk t).view.emb (ix2 p k)) = _
  refine congrArg (A : S50000x128.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- So for the features as the region finds them. -/
theorem feat0_read (c : Dev nD) (t : Fin cfg0.N) (p : Fin 2000) (k : Fin 128) :
    (iblk m c 0 t : S2000x128.Idx → EReal) (ix2 p k) = (V m c main_arg0 : S50000x128.Idx → EReal) (ix2 (row t p) k) :=
  feat0_read_of c (V m c main_arg0) t p k

/-- Point t's block of any array staged through feature window 1, at (p, k), is the array's entry (2000·t + p, k). -/
theorem feat1_read_of (c : Dev nD) (A : Buf (Elt Ideal) ((c : Thread nD τ).loc main_v12)) (t : Fin cfg0.N) (p : Fin 2000) (k : Fin 128) :
    (((cfg0.win 1).blk t).view.read (Elt Ideal) A : S2000x128.Idx → EReal) (ix2 p k)
      = (A : S50000x128.Idx → EReal) (ix2 (row t p) k) := by
  have e0 : win0_1.index t (0 : Fin 2) = t.val := (idx_facts t).2.2.1
  have e1 : win0_1.index t (1 : Fin 2) = 0 := (idx_facts t).2.2.2.1
  show (A : S50000x128.Idx → EReal) (((cfg0.win 1).blk t).view.emb (ix2 p k)) = _
  refine congrArg (A : S50000x128.Idx → EReal) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- So for the edges-in aggregate as the region finds them. -/
theorem feat1_read (c : Dev nD) (t : Fin cfg0.N) (p : Fin 2000) (k : Fin 128) :
    (iblk m c 1 t : S2000x128.Idx → EReal) (ix2 p k) = (V m c main_v12 : S50000x128.Idx → EReal) (ix2 (row t p) k) :=
  feat1_read_of c (V m c main_v12) t p k

/-- Point t's block of any array staged through feature window 2, at (p, k), is the array's entry (2000·t + p, k). -/
theorem feat2_read_of (c : Dev nD) (A : Buf (Elt Ideal) ((c : Thread nD τ).loc main_v25)) (t : Fin cfg0.N) (p : Fin 2000) (k : Fin 128) :
    (((cfg0.win 2).blk t).view.read (Elt Ideal) A : S2000x128.Idx → EReal) (ix2 p k)
      = (A : S50000x128.Idx → EReal) (ix2 (row t p) k) := by
  have e0 : win0_2.index t (0 : Fin 2) = t.val := (idx_facts t).2.2.2.2.1
  have e1 : win0_2.index t (1 : Fin 2) = 0 := (idx_facts t).2.2.2.2.2.1
  show (A : S50000x128.Idx → EReal) (((cfg0.win 2).blk t).view.emb (ix2 p k)) = _
  refine congrArg (A : S50000x128.Idx → EReal) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

/-- So for the edges-out aggregate as the region finds them. -/
theorem feat2_read (c : Dev nD) (t : Fin cfg0.N) (p : Fin 2000) (k : Fin 128) :
    (iblk m c 2 t : S2000x128.Idx → EReal) (ix2 p k) = (V m c main_v25 : S50000x128.Idx → EReal) (ix2 (row t p) k) :=
  feat2_read_of c (V m c main_v25) t p k

/-- A weight matrix is staged whole at every point: the block of any array staged through window 3 is the array. -/
theorem weight3_read_of (c : Dev nD) (A : Buf (Elt Ideal) ((c : Thread nD τ).loc main_v26)) (t : Fin cfg0.N) (k j : Fin 128) :
    (((cfg0.win 3).blk t).view.read (Elt Ideal) A : S128x128.Idx → EReal) (ix2 k j)
      = (A : S128x128.Idx → EReal) (ix2 k j) := by
  have e0 : win0_3.index t (0 : Fin 2) = 0 := (idx_facts t).2.2.2.2.2.2.1
  have e1 : win0_3.index t (1 : Fin 2) = 0 := (idx_facts t).2.2.2.2.2.2.2.1
  show (A : S128x128.Idx → EReal) (((cfg0.win 3).blk t).view.emb (ix2 k j)) = _
  refine congrArg (A : S128x128.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem weight3_read (c : Dev nD) (t : Fin cfg0.N) (k j : Fin 128) :
    (iblk m c 3 t : S128x128.Idx → EReal) (ix2 k j) = (V m c main_v26 : S128x128.Idx → EReal) (ix2 k j) :=
  weight3_read_of c (V m c main_v26) t k j

/-- A weight matrix is staged whole at every point: the block of any array staged through window 4 is the array. -/
theorem weight4_read_of (c : Dev nD) (A : Buf (Elt Ideal) ((c : Thread nD τ).loc main_v27)) (t : Fin cfg0.N) (k j : Fin 128) :
    (((cfg0.win 4).blk t).view.read (Elt Ideal) A : S128x128.Idx → EReal) (ix2 k j)
      = (A : S128x128.Idx → EReal) (ix2 k j) := by
  have e0 : win0_4.index t (0 : Fin 2) = 0 := (idx_facts t).2.2.2.2.2.2.2.2.1
  have e1 : win0_4.index t (1 : Fin 2) = 0 := (idx_facts t).2.2.2.2.2.2.2.2.2.1
  show (A : S128x128.Idx → EReal) (((cfg0.win 4).blk t).view.emb (ix2 k j)) = _
  refine congrArg (A : S128x128.Idx → EReal) (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

theorem weight4_read (c : Dev nD) (t : Fin cfg0.N) (k j : Fin 128) :
    (iblk m c 4 t : S128x128.Idx → EReal) (ix2 k j) = (V m c main_v27 : S128x128.Idx → EReal) (ix2 k j) :=
  weight4_read_of c (V m c main_v27) t k j

/-- A weight matrix is staged whole at every point: the block of any array staged through window 5 is the array. -/
theorem weight5_read_of (c : Dev nD) (A : Buf (Elt Ideal) ((c : Thread nD τ).loc main_v28)) (t : Fin cfg0.N) (k j : Fin 128) :
    (((cfg0.win 5).blk t).view.read (Elt Ideal) A : S128x128.Idx → EReal) (ix2 k j)
      = (A : S128x128.Idx → EReal) (ix2 k j) := by
  have e0 : win0_5.index t (0 : Fin 2) = 0 := (idx_facts t).2.2.2.2.2.2.2.2.2.2.1
  have e1 : win0_5.index t (1 : Fin 2) = 0 := (idx_facts t).2.2.2.2.2.2.2.2.2.2.2.1
  show (A : S128x128.Idx → EReal) (((cfg0.win 5).blk t).view.emb (ix2 k j)) = _
  refine congrArg (A : S128x128.Idx → EReal) (funext fun a => Fin.ext ?_)
  match a with
  | ⟨0, _⟩ => show win0_5.index t (0 : Fin 2) * 128 + 1 * k.val = k.val; rw [e0]; omega
  | ⟨1, _⟩ => show win0_5.index t (1 : Fin 2) * 128 + 1 * j.val = j.val; rw [e1]; omega

theorem weight5_read (c : Dev nD) (t : Fin cfg0.N) (k j : Fin 128) :
    (iblk m c 5 t : S128x128.Idx → EReal) (ix2 k j) = (V m c main_v28 : S128x128.Idx → EReal) (ix2 k j) :=
  weight5_read_of c (V m c main_v28) t k j

/-- A shared row is staged whole at every point: the block of any array staged through window 6 is the array. -/
theorem shared6_read_of (c : Dev nD) (A : Buf (Elt Ideal) ((c : Thread nD τ).loc main_v29)) (t : Fin cfg0.N) (j : Fin 128) :
    (((cfg0.win 6).blk t).view.read (Elt Ideal) A : S1x128.Idx → EReal) (ix2 (0 : Fin 1) j)
      = (A : S1x128.Idx → EReal) (ix2 (0 : Fin 1) j) := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  show (A : S1x128.Idx → EReal) (((cfg0.win 6).blk t).view.emb (ix2 (0 : Fin 1) j)) = _
  refine congrArg (A : S1x128.Idx → EReal) (funext fun a => Fin.ext ?_)
  match a with
  | ⟨0, _⟩ => show win0_6.index t (0 : Fin 2) * 1 + 1 * (0 : Fin 1).val = (0 : Fin 1).val; rw [e0]; rfl
  | ⟨1, _⟩ => show win0_6.index t (1 : Fin 2) * 128 + 1 * j.val = j.val; rw [e1]; omega

theorem shared6_read (c : Dev nD) (t : Fin cfg0.N) (j : Fin 128) :
    (iblk m c 6 t : S1x128.Idx → EReal) (ix2 (0 : Fin 1) j) = (V m c main_v29 : S1x128.Idx → EReal) (ix2 (0 : Fin 1) j) :=
  shared6_read_of c (V m c main_v29) t j

/-- A shared row is staged whole at every point: the block of any array staged through window 7 is the array. -/
theorem shared7_read_of (c : Dev nD) (A : Buf (Elt Ideal) ((c : Thread nD τ).loc main_v30)) (t : Fin cfg0.N) (j : Fin 128) :
    (((cfg0.win 7).blk t).view.read (Elt Ideal) A : S1x128.Idx → EReal) (ix2 (0 : Fin 1) j)
      = (A : S1x128.Idx → EReal) (ix2 (0 : Fin 1) j) := by
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  show (A : S1x128.Idx → EReal) (((cfg0.win 7).blk t).view.emb (ix2 (0 : Fin 1) j)) = _
  refine congrArg (A : S1x128.Idx → EReal) (funext fun a => Fin.ext ?_)
  match a with
  | ⟨0, _⟩ => show win0_7.index t (0 : Fin 2) * 1 + 1 * (0 : Fin 1).val = (0 : Fin 1).val; rw [e0]; rfl
  | ⟨1, _⟩ => show win0_7.index t (1 : Fin 2) * 128 + 1 * j.val = j.val; rw [e1]; omega

theorem shared7_read (c : Dev nD) (t : Fin cfg0.N) (j : Fin 128) :
    (iblk m c 7 t : S1x128.Idx → EReal) (ix2 (0 : Fin 1) j) = (V m c main_v30 : S1x128.Idx → EReal) (ix2 (0 : Fin 1) j) :=
  shared7_read_of c (V m c main_v30) t j

/-- A shared row is staged whole at every point: the block of any array staged through window 8 is the array. -/
theorem shared8_read_of (c : Dev nD) (A : Buf (Elt Ideal) ((c : Thread nD τ).loc main_v31)) (t : Fin cfg0.N) (j : Fin 128) :
    (((cfg0.win 8).blk t).view.read (Elt Ideal) A : S1x128.Idx → EReal) (ix2 (0 : Fin 1) j)
      = (A : S1x128.Idx → EReal) (ix2 (0 : Fin 1) j) := by
  have e0 : win0_8.index t (0 : Fin 2) = 0 := (idx_facts t).2.2.2.2.2.2.2.2.2.2.2.2.2.2.2.2.1
  have e1 : win0_8.index t (1 : Fin 2) = 0 := (idx_facts t).2.2.2.2.2.2.2.2.2.2.2.2.2.2.2.2.2.1
  show (A : S1x128.Idx → EReal) (((cfg0.win 8).blk t).view.emb (ix2 (0 : Fin 1) j)) = _
  refine congrArg (A : S1x128.Idx → EReal) (funext fun a => Fin.ext ?_)
  match a with
  | ⟨0, _⟩ => show win0_8.index t (0 : Fin 2) * 1 + 1 * (0 : Fin 1).val = (0 : Fin 1).val; rw [e0]; rfl
  | ⟨1, _⟩ => show win0_8.index t (1 : Fin 2) * 128 + 1 * j.val = j.val; rw [e1]; omega

theorem shared8_read (c : Dev nD) (t : Fin cfg0.N) (j : Fin 128) :
    (iblk m c 8 t : S1x128.Idx → EReal) (ix2 (0 : Fin 1) j) = (V m c main_v31 : S1x128.Idx → EReal) (ix2 (0 : Fin 1) j) :=
  shared8_read_of c (V m c main_v31) t j

/-- Entry (p, q) of point t's result block sits at (2000·t + p, q) of the result array. -/
theorem result_emb (t : Fin cfg0.N) (p : Fin 2000) (q : Fin 128) :
    ((cfg0.win 9).blk t).view.emb (ix2 p q) = (ix2 (row t p) q : S50000x128.Idx) := by
  have e0 : win0_9.index t (0 : Fin 2) = t.val := (idx_facts t).2.2.2.2.2.2.2.2.2.2.2.2.2.2.2.2.2.2.1
  have e1 : win0_9.index t (1 : Fin 2) = 0 := (idx_facts t).2.2.2.2.2.2.2.2.2.2.2.2.2.2.2.2.2.2.2
  refine funext fun a => Fin.ext ?_
  match a with
  | ⟨0, _⟩ => show win0_9.index t (0 : Fin 2) * 2000 + 1 * p.val = t.val * 2000 + p.val; rw [e0]; omega
  | ⟨1, _⟩ => show win0_9.index t (1 : Fin 2) * 128 + 1 * q.val = q.val; rw [e1]; omega

/-- The layer's function of the arrays as the region finds them: what the result array ends holding. -/
abbrev result (c : Dev nD) : S50000x128.Idx → EReal :=
  out (V m c main_arg0) (V m c main_v12) (V m c main_v25) (V m c main_v26) (V m c main_v27) (V m c main_v28)
    (fun j => (V m c main_v29 : S1x128.Idx → EReal) (ix2 (0 : Fin 1) j))
    (fun j => (V m c main_v30 : S1x128.Idx → EReal) (ix2 (0 : Fin 1) j))
    (fun j => (V m c main_v31 : S1x128.Idx → EReal) (ix2 (0 : Fin 1) j))

/-- What point t writes back is block t of `result`. -/
theorem flushed_eq (c : Dev nD) (t : Fin cfg0.N) :
    (dats m 0 c).flushed 9 t = ((cfg0.win 9).blk t).view.read (Elt Ideal) (result m c) := by
  rw [flushed9 m c t]
  unfold out0_9
  rw [View.canon_unit_zero origin]
  simp only [View.ld_unit_zero (S := S2000x128) origin, View.ld_unit_zero (S := S128x128) origin,
    View.ld_unit_zero (S := S1x128) origin]
  funext y
  obtain ⟨p, q, rfl⟩ : ∃ (p : Fin 2000) (q : Fin 128), y = ix2 p q := ⟨y 0, y 1, eq_ix2 y⟩
  show k0_pay1 (F := Ideal) (k0_pay2 (iblk m c 0 t) (iblk m c 1 t) (iblk m c 2 t) (iblk m c 3 t) (iblk m c 4 t) (iblk m c 5 t) (iblk m c 6 t))
      (k0_pay3 (iblk m c 0 t) (iblk m c 1 t) (iblk m c 2 t) (iblk m c 3 t) (iblk m c 4 t) (iblk m c 5 t) (iblk m c 6 t)) (Scalar.ofBits .f32 0x3727C5AC#32) (iblk m c 7 t) (iblk m c 8 t) (ix2 p q)
    = result m c (((cfg0.win 9).blk t).view.emb (ix2 p q))
  refine (Row.body_apply (iblk m c 0 t) (iblk m c 1 t) (iblk m c 2 t) (iblk m c 3 t) (iblk m c 4 t) (iblk m c 5 t) (iblk m c 6 t) (iblk m c 7 t) (iblk m c 8 t) p q).trans ?_
  rw [result_emb t p q]
  show _ = normClip (affine (fun k => (V m c main_arg0 : S50000x128.Idx → EReal) (ix2 (row t p) k))
      (fun k => (V m c main_v12 : S50000x128.Idx → EReal) (ix2 (row t p) k))
      (fun k => (V m c main_v25 : S50000x128.Idx → EReal) (ix2 (row t p) k))
      (fun k j => (V m c main_v26 : S128x128.Idx → EReal) (ix2 k j))
      (fun k j => (V m c main_v27 : S128x128.Idx → EReal) (ix2 k j))
      (fun k j => (V m c main_v28 : S128x128.Idx → EReal) (ix2 k j))
      (fun j => (V m c main_v29 : S1x128.Idx → EReal) (ix2 (0 : Fin 1) j)))
      (fun j => (V m c main_v30 : S1x128.Idx → EReal) (ix2 (0 : Fin 1) j))
      (fun j => (V m c main_v31 : S1x128.Idx → EReal) (ix2 (0 : Fin 1) j)) q
  simp only [feat0_read m c t, feat1_read m c t, feat2_read m c t, weight3_read m c t, weight4_read m c t,
    weight5_read m c t, shared6_read m c t, shared7_read m c t, shared8_read m c t]

/-- An index of the result array is in point t's block iff each coordinate is in the block's range on its axis. -/
theorem mem_blk (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v32).slice (win0_9.rect t)).set ↔ _
  rw [View.set_slice_whole, Rect.mem_set_unit]
  exact Iff.rfl

/-- Every index of the result array is in some point's block: row r is in the block of point r / 2000. -/
theorem covered (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  have e0 : win0_9.index t (0 : Fin 2) = t.val := (idx_facts t).2.2.2.2.2.2.2.2.2.2.2.2.2.2.2.2.2.2.1
  have e1 : win0_9.index t (1 : Fin 2) = 0 := (idx_facts t).2.2.2.2.2.2.2.2.2.2.2.2.2.2.2.2.2.2.2
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; rw [e0, ht]; omega
  | ⟨1, _⟩ => show win0_9.index t (1 : Fin 2) * 128 ≤ (i 1).val ∧ (i 1).val < win0_9.index t (1 : Fin 2) * 128 + 128; rw [e1]; omega

/-- The result array after the run. -/
theorem final (c : Dev nD) : (dats m 0 c).arrAt 9 cfg0.N = result m c :=
  (dats m 0 c).arrAt_eq_of_cover 9 (result m c) (fun t _ => flushed_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.KernelIdeal.Whole

end
-- ==== Proof.HostStages.lean ====
/-
  The arrays the kernel's region finds.

  Before the region the kernel's program computes on the host: the two aggregates (each a scatter-add, over the
  edges, of gathered feature rows weighted by the edge values), the three weight matrices transposed, and the bias,
  scale and shift vectors viewed as the single row of a [1, 128] array.  The reference computes the same aggregates
  and the same transposes by the same operations on the same arguments, so as functions of the arguments they ARE
  the reference's stages: nothing here looks inside a gather, a scatter-add or a transpose.  Each of the three
  rows reads, at column j, entry j of its vector.
-/
import proofs.«152484_j65807488909810_1_alg».proof.Proof.Gen.KernelIdeal.Frame
import proofs.«152484_j65807488909810_1_alg».proof.Proof.Gen.ReferenceIdeal.Read
import Idealize.ShloMosaic.Lib.StableHlo.Run
import Idealize.ShloMosaic.Lib.ValueLayout

noncomputable section

namespace Cert.KernelIdeal.HostStages

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The aggregate over the edges in, as the region finds it. -/
theorem aggIn (c : Dev nD) :
    (V m c main_v12 : S50000x128.Idx → EReal)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results_simp <;> rfl

/-- The aggregate over the edges out, as the region finds it. -/
theorem aggOut (c : Dev nD) :
    (V m c main_v25 : S50000x128.Idx → EReal)
      = Cert.ReferenceIdeal.Read.val_main_v25 (F := Ideal) (m ((c : Thread nD τ).loc main_arg0)) (m ((c : Thread nD τ).loc main_arg4)) (m ((c : Thread nD τ).loc main_arg5)) (m ((c : Thread nD τ).loc main_arg6)) := by
  dsimp only [Gen.V, Gen.hostOps0]
  after_results_simp <;> rfl

/-- The self weights transposed. -/
theorem weightSelf (c : Dev nD) :
    (V m c main_v26 : S128x128.Idx → EReal) = Cert.ReferenceIdeal.Read.val_main_v26 (F := Ideal) (m ((c : Thread nD τ).loc main_arg7)) := by
  dsimp only [Gen.V, Gen.hostOps0]
  after_results
  rfl

/-- The weights of the edges in, transposed. -/
theorem weightIn (c : Dev nD) :
    (V m c main_v27 : S128x128.Idx → EReal) = Cert.ReferenceIdeal.Read.val_main_v31 (F := Ideal) (m ((c : Thread nD τ).loc main_arg9)) := by
  dsimp only [Gen.V, Gen.hostOps0]
  after_results
  rfl

/-- The weights of the edges out, transposed. -/
theorem weightOut (c : Dev nD) :
    (V m c main_v28 : S128x128.Idx → EReal) = Cert.ReferenceIdeal.Read.val_main_v34 (F := Ideal) (m ((c : Thread nD τ).loc main_arg10)) := by
  dsimp only [Gen.V, Gen.hostOps0]
  after_results
  rfl

/-- The bias row at column j is the bias vector's entry j. -/
theorem biasRow (c : Dev nD) (j : Fin 128) :
    (V m c main_v29 : S1x128.Idx → EReal) (ix2 (0 : Fin 1) j) = ((m ((c : Thread nD τ).loc main_arg8)) : S128.Idx → EReal) (ix1 j) := by
  have e : (V m c main_v29 : S1x128.Idx → EReal)
      = shapeCast S1x128 ((m ((c : Thread nD τ).loc main_arg8)) : S128.Idx → EReal) shapeCasts_S128_S1x128 := by
    dsimp only [Gen.V, Gen.hostOps0]
    after_results
    rfl
  rw [e]
  exact shapeCast_a_1a_apply _ _ (0 : Fin 1) j

/-- The scale row at column j is the scale vector's entry j. -/
theorem scaleRow (c : Dev nD) (j : Fin 128) :
    (V m c main_v30 : S1x128.Idx → EReal) (ix2 (0 : Fin 1) j) = ((m ((c : Thread nD τ).loc main_arg11)) : S128.Idx → EReal) (ix1 j) := by
  have e : (V m c main_v30 : S1x128.Idx → EReal)
      = shapeCast S1x128 ((m ((c : Thread nD τ).loc main_arg11)) : S128.Idx → EReal) shapeCasts_S128_S1x128 := by
    dsimp only [Gen.V, Gen.hostOps0]
    after_results
    rfl
  rw [e]
  exact shapeCast_a_1a_apply _ _ (0 : Fin 1) j

/-- The shift row at column j is the shift vector's entry j. -/
theorem shiftRow (c : Dev nD) (j : Fin 128) :
    (V m c main_v31 : S1x128.Idx → EReal) (ix2 (0 : Fin 1) j) = ((m ((c : Thread nD τ).loc main_arg12)) : S128.Idx → EReal) (ix1 j) := by
  have e : (V m c main_v31 : S1x128.Idx → EReal)
      = shapeCast S1x128 ((m ((c : Thread nD τ).loc main_arg12)) : S128.Idx → EReal) shapeCasts_S128_S1x128 := by
    dsimp only [Gen.V, Gen.hostOps0]
    after_results
    rfl
  rw [e]
  exact shapeCast_a_1a_apply _ _ (0 : Fin 1) j

end Cert.KernelIdeal.HostStages

end
-- ==== Proof.Bridge.lean ====
/-
  The kernel's result as a function of the arguments.

  The region finds the features as launched, the two aggregates and the three transposed weight matrices as the
  host computed them, and the bias, scale and shift vectors as rows.  Put into the layer's function of the arrays
  the region finds, this gives the kernel's result array as the layer's function of the features, of the
  aggregates and transposes AS THE REFERENCE'S STAGES COMPUTE THEM from the arguments, and of the three vectors.
-/
import proofs.«152484_j65807488909810_1_alg».proof.Proof.KernelArray
import proofs.«152484_j65807488909810_1_alg».proof.Proof.HostStages

noncomputable section

namespace Cert.KernelIdeal.Bridge

open Cert.KernelIdeal Cert.KernelIdeal.Gen Idealize.ShloMosaic Idealize.ShloMosaic.TcCoe Idealize.SL.Sem
open Idealize.ShloMosaic.ValueIdx Cert.Layer

variable (m : (ℓ : Loc nD τ sig) → Buf (Elt Ideal) ℓ)

/-- The result array the kernel leaves, through the reference's stages of the arguments. -/
theorem result_stages (c : Dev nD) :
    Whole.result m c
      = out (m ((c : Thread nD τ).loc main_arg0))
          (Cert.ReferenceIdeal.Read.val_main_v12 (F := Ideal) (m ((c : Thread nD τ).loc main_arg0)) (m ((c : Thread nD τ).loc main_arg1)) (m ((c : Thread nD τ).loc main_arg2)) (m ((c : Thread nD τ).loc main_arg3)))
          (Cert.ReferenceIdeal.Read.val_main_v25 (F := Ideal) (m ((c : Thread nD τ).loc main_arg0)) (m ((c : Thread nD τ).loc main_arg4)) (m ((c : Thread nD τ).loc main_arg5)) (m ((c : Thread nD τ).loc main_arg6)))
          (Cert.ReferenceIdeal.Read.val_main_v26 (F := Ideal) (m ((c : Thread nD τ).loc main_arg7)))
          (Cert.ReferenceIdeal.Read.val_main_v31 (F := Ideal) (m ((c : Thread nD τ).loc main_arg9)))
          (Cert.ReferenceIdeal.Read.val_main_v34 (F := Ideal) (m ((c : Thread nD τ).loc main_arg10)))
          (fun j => ((m ((c : Thread nD τ).loc main_arg8)) : S128.Idx → EReal) (ix1 j))
          (fun j => ((m ((c : Thread nD τ).loc main_arg11)) : S128.Idx → EReal) (ix1 j))
          (fun j => ((m ((c : Thread nD τ).loc main_arg12)) : S128.Idx → EReal) (ix1 j)) := by
  have h0 := V_main_arg0 m c
  have h1 := HostStages.aggIn m c
  have h2 := HostStages.aggOut m c
  have h3 := HostStages.weightSelf m c
  have h4 := HostStages.weightIn m c
  have h5 := HostStages.weightOut m c
  have h6 : (fun j : Fin 128 => (V m c main_v29 : S1x128.Idx → EReal) (ix2 (0 : Fin 1) j))
      = fun j => ((m ((c : Thread nD τ).loc main_arg8)) : S128.Idx → EReal) (ix1 j) := funext (HostStages.biasRow m c)
  have h7 : (fun j : Fin 128 => (V m c main_v30 : S1x128.Idx → EReal) (ix2 (0 : Fin 1) j))
      = fun j => ((m ((c : Thread nD τ).loc main_arg11)) : S128.Idx → EReal) (ix1 j) := funext (HostStages.scaleRow m c)
  have h8 : (fun j : Fin 128 => (V m c main_v31 : S1x128.Idx → EReal) (ix2 (0 : Fin 1) j))
      = fun j => ((m ((c : Thread nD τ).loc main_arg12)) : S128.Idx → EReal) (ix1 j) := funext (HostStages.shiftRow m c)
  show out (V m c main_arg0) (V m c main_v12) (V m c main_v25) (V m c main_v26) (V m c main_v27) (V m c main_v28)
      (fun j : Fin 128 => (V m c main_v29 : S1x128.Idx → EReal) (ix2 (0 : Fin 1) j))
      (fun j : Fin 128 => (V m c main_v30 : S1x128.Idx → EReal) (ix2 (0 : Fin 1) j))
      (fun j : Fin 128 => (V m c main_v31 : S1x128.Idx → EReal) (ix2 (0 : Fin 1) j)) = _
  rw [h6, h7, h8, h1, h2, h3, h4, h5, h0]

end Cert.KernelIdeal.Bridge

end
-- ==== Proof.RefValue.lean ====
/-
  The reference's result at an index.

  The reference computes on whole arrays of 50000 rows, but every step either acts entry by entry, or broadcasts
  a row of 128 or a column of 50000 values, or sums along a row: so its entry (r, j) is a function of row r of the
  features and of the two aggregates, of the transposed weight matrices and of the three shared vectors.  That
  function is the layer's row function with the bias added second, which is the layer's row function.
  The two aggregates and the three transposed weight matrices are kept as the stages that compute them: nothing
  here looks inside them.
-/
import proofs.«152484_j65807488909810_1_alg».proof.Proof.Gen.ReferenceIdeal.Read
import proofs.«152484_j65807488909810_1_alg».proof.Proof.Spec

noncomputable section

namespace Cert.ReferenceIdeal.RefValue

open Cert.ReferenceIdeal Cert.ReferenceIdeal.Read Idealize.ShloMosaic Idealize.ShloMosaic.ValueIdx Cert.Layer

/-! ## Where each stage reads its operands, at an index (r, j) -/

theorem lhs27 (r : Fin 50000) (j k : Fin 128) : lidx_main_v27 (ix2 r j) k = ix2 r k := funext fun a => Fin.ext (by
    match a with
    | ⟨0, _⟩ => rfl
    | ⟨1, _⟩ => rfl)
theorem rhs27 (r : Fin 50000) (j k : Fin 128) : ridx_main_v27 (ix2 r j) k = ix2 k j := funext fun a => Fin.ext (by
    match a with
    | ⟨0, _⟩ => rfl
    | ⟨1, _⟩ => rfl)
theorem lhs32 (r : Fin 50000) (j k : Fin 128) : lidx_main_v32 (ix2 r j) k = ix2 r k := funext fun a => Fin.ext (by
    match a with
    | ⟨0, _⟩ => rfl
    | ⟨1, _⟩ => rfl)
theorem rhs32 (r : Fin 50000) (j k : Fin 128) : ridx_main_v32 (ix2 r j) k = ix2 k j := funext fun a => Fin.ext (by
    match a with
    | ⟨0, _⟩ => rfl
    | ⟨1, _⟩ => rfl)
theorem lhs35 (r : Fin 50000) (j k : Fin 128) : lidx_main_v35 (ix2 r j) k = ix2 r k := funext fun a => Fin.ext (by
    match a with
    | ⟨0, _⟩ => rfl
    | ⟨1, _⟩ => rfl)
theorem rhs35 (r : Fin 50000) (j k : Fin 128) : ridx_main_v35 (ix2 r j) k = ix2 k j := funext fun a => Fin.ext (by
    match a with
    | ⟨0, _⟩ => rfl
    | ⟨1, _⟩ => rfl)
theorem biasAt (r : Fin 50000) (j : Fin 128) : idx_main_v28 (idx_main_v29 (ix2 r j)) = ix1 j := funext fun a => Fin.ext (by
    match a with
    | ⟨0, _⟩ => rfl)
theorem scaleAt (r : Fin 50000) (j : Fin 128) : idx_main_v55 (idx_main_v56 (ix2 r j)) = ix1 j := funext fun a => Fin.ext (by
    match a with
    | ⟨0, _⟩ => rfl)
theorem shiftAt (r : Fin 50000) (j : Fin 128) : idx_main_v58 (idx_main_v59 (ix2 r j)) = ix1 j := funext fun a => Fin.ext (by
    match a with
    | ⟨0, _⟩ => rfl)
theorem sumAt37 (r : Fin 50000) (u : Fin 1) (k : Fin 128) : idx_main_v37 (idx_main_v38 (ix2 r u)) k = ix2 r k := funext fun a => Fin.ext (by
    match a with
    | ⟨0, _⟩ => rfl
    | ⟨1, _⟩ => rfl)
theorem sumAt44 (r : Fin 50000) (u : Fin 1) (k : Fin 128) : idx_main_v44 (idx_main_v45 (ix2 r u)) k = ix2 r k := funext fun a => Fin.ext (by
    match a with
    | ⟨0, _⟩ => rfl
    | ⟨1, _⟩ => rfl)
theorem colAt41 (r : Fin 50000) (j : Fin 128) : idx_main_v41 (ix2 r j) = ix2 r (0 : Fin 1) := funext fun a => Fin.ext (by
    match a with
    | ⟨0, _⟩ => rfl
    | ⟨1, _⟩ => rfl)
theorem colAt48 (r : Fin 50000) (j : Fin 128) : idx_main_v48 (ix2 r j) = ix2 r (0 : Fin 1) := funext fun a => Fin.ext (by
    match a with
    | ⟨0, _⟩ => rfl
    | ⟨1, _⟩ => rfl)
theorem colAt53 (r : Fin 50000) (j : Fin 128) : idx_main_v53 (ix2 r j) = ix2 r (0 : Fin 1) := funext fun a => Fin.ext (by
    match a with
    | ⟨0, _⟩ => rfl
    | ⟨1, _⟩ => rfl)

variable (x0 : (⟨S50000x128, .f32⟩ : BufTy).Contents (Elt Ideal)) (x1 x2 : (⟨S600000, .i32⟩ : BufTy).Contents (Elt Ideal)) (x3 : (⟨S600000, .f32⟩ : BufTy).Contents (Elt Ideal))
  (x4 x5 : (⟨S600000, .i32⟩ : BufTy).Contents (Elt Ideal)) (x6 : (⟨S600000, .f32⟩ : BufTy).Contents (Elt Ideal)) (x7 : (⟨S128x128, .f32⟩ : BufTy).Contents (Elt Ideal)) (x8 : (⟨S128, .f32⟩ : BufTy).Contents (Elt Ideal))
  (x9 x10 : (⟨S128x128, .f32⟩ : BufTy).Contents (Elt Ideal)) (x11 x12 : (⟨S128, .f32⟩ : BufTy).Contents (Elt Ideal))

/-! ## The stages -/

/-- The row before normalisation, with the bias added second. -/
theorem pre_apply (r : Fin 50000) (j : Fin 128) :
    val_main_v36 (F := Ideal) x0 x1 x2 x3 x4 x5 x6 x7 x8 x9 x10 (ix2 r j)
      = affineBiasSecond (fun k => x0 (ix2 r k)) (fun k => val_main_v12 (F := Ideal) x0 x1 x2 x3 (ix2 r k))
          (fun k => val_main_v25 (F := Ideal) x0 x4 x5 x6 (ix2 r k))
          (fun k j => val_main_v26 (F := Ideal) x7 (ix2 k j)) (fun k j => val_main_v31 (F := Ideal) x9 (ix2 k j))
          (fun k j => val_main_v34 (F := Ideal) x10 (ix2 k j)) (fun j => x8 (ix1 j)) j := by
  rw [val_main_v36_apply, val_main_v33_apply, val_main_v30_apply, val_main_v27_apply, val_main_v29_apply,
    val_main_v28_apply, val_main_v32_apply, val_main_v35_apply]
  simp only [lhs27, rhs27, lhs32, rhs32, lhs35, rhs35, biasAt]
  rfl

/-- The mean of row r, as the column of means holds it. -/
theorem mean_apply (r : Fin 50000) (u : Fin 1) :
    val_main_v40 (F := Ideal) x0 x1 x2 x3 x4 x5 x6 x7 x8 x9 x10 (ix2 r u) = mean (fun k => val_main_v36 (F := Ideal) x0 x1 x2 x3 x4 x5 x6 x7 x8 x9 x10 (ix2 r k)) := by
  rw [val_main_v40_apply, val_main_v38_apply, val_main_v37_apply, val_main_v39_apply, val_main_cst_5_apply,
    val_main_cst_4_apply]
  simp only [sumAt37, Ideal.ofBits_def, Ideal.ofBits_zero_f32, zero_add, Ideal.hostDivf_def]
  rfl

/-- Row r with its mean taken off (the copy the variance is taken of). -/
theorem centredSq_apply (r : Fin 50000) (j : Fin 128) :
    val_main_v42 (F := Ideal) x0 x1 x2 x3 x4 x5 x6 x7 x8 x9 x10 (ix2 r j) = centred (fun k => val_main_v36 (F := Ideal) x0 x1 x2 x3 x4 x5 x6 x7 x8 x9 x10 (ix2 r k)) j := by
  rw [val_main_v42_apply, val_main_v41_apply, colAt41, mean_apply]
  rfl

/-- Row r with its mean taken off (the copy that is scaled). -/
theorem centred_apply (r : Fin 50000) (j : Fin 128) :
    val_main_v49 (F := Ideal) x0 x1 x2 x3 x4 x5 x6 x7 x8 x9 x10 (ix2 r j) = centred (fun k => val_main_v36 (F := Ideal) x0 x1 x2 x3 x4 x5 x6 x7 x8 x9 x10 (ix2 r k)) j := by
  rw [val_main_v49_apply, val_main_v48_apply, colAt48, mean_apply]
  rfl

/-- The variance of row r, as the column of variances holds it. -/
theorem variance_apply (r : Fin 50000) (u : Fin 1) :
    val_main_v47 (F := Ideal) x0 x1 x2 x3 x4 x5 x6 x7 x8 x9 x10 (ix2 r u) = variance (fun k => val_main_v36 (F := Ideal) x0 x1 x2 x3 x4 x5 x6 x7 x8 x9 x10 (ix2 r k)) := by
  rw [val_main_v47_apply, val_main_v45_apply, val_main_v44_apply, val_main_v46_apply, val_main_cst_7_apply,
    val_main_cst_6_apply]
  simp only [sumAt44, val_main_v43_apply, centredSq_apply, Ideal.ofBits_def, Ideal.ofBits_zero_f32, zero_add,
    Ideal.hostDivf_def, Ideal.mulf_def]
  rfl

/-- The result at (r, j): the row before normalisation, normalised, scaled, shifted and clipped, at j. -/
theorem result_apply (r : Fin 50000) (j : Fin 128) :
    val_main_v61 (F := Ideal) x0 x1 x2 x3 x4 x5 x6 x7 x8 x9 x10 x11 x12 (ix2 r j)
      = normClip (fun k => val_main_v36 (F := Ideal) x0 x1 x2 x3 x4 x5 x6 x7 x8 x9 x10 (ix2 r k)) (fun j => x11 (ix1 j)) (fun j => x12 (ix1 j)) j := by
  rw [val_main_v61_apply, val_main_v60_apply, val_main_v57_apply, val_main_v54_apply, centred_apply,
    val_main_v53_apply, colAt53, val_main_v52_apply, val_main_v51_apply, variance_apply, val_main_v50_apply,
    val_main_cst_8_apply, val_main_v56_apply, val_main_v55_apply, scaleAt, val_main_v59_apply, val_main_v58_apply,
    shiftAt, val_main_call0_v0_apply, val_main_call0_cst_apply]
  rfl

/-- The reference's result array is the layer's function of the features, the two aggregates, the three transposed
    weight matrices and the three shared vectors. -/
theorem result_eq :
    val_main_v61 (F := Ideal) x0 x1 x2 x3 x4 x5 x6 x7 x8 x9 x10 x11 x12
      = out x0 (val_main_v12 (F := Ideal) x0 x1 x2 x3) (val_main_v25 (F := Ideal) x0 x4 x5 x6)
          (val_main_v26 (F := Ideal) x7) (val_main_v31 (F := Ideal) x9) (val_main_v34 (F := Ideal) x10)
          (fun j => x8 (ix1 j)) (fun j => x11 (ix1 j)) (fun j => x12 (ix1 j)) := by
  funext i
  obtain ⟨r, j, rfl⟩ : ∃ (r : Fin 50000) (j : Fin 128), i = ix2 r j := ⟨i 0, i 1, eq_ix2 i⟩
  rw [result_apply]
  have hrow : (fun k => val_main_v36 (F := Ideal) x0 x1 x2 x3 x4 x5 x6 x7 x8 x9 x10 (ix2 r k))
      = affine (fun k => x0 (ix2 r k)) (fun k => val_main_v12 (F := Ideal) x0 x1 x2 x3 (ix2 r k))
          (fun k => val_main_v25 (F := Ideal) x0 x4 x5 x6 (ix2 r k))
          (fun k j => val_main_v26 (F := Ideal) x7 (ix2 k j)) (fun k j => val_main_v31 (F := Ideal) x9 (ix2 k j))
          (fun k j => val_main_v34 (F := Ideal) x10 (ix2 k j)) (fun j => x8 (ix1 j)) :=
    (funext fun k => pre_apply x0 x1 x2 x3 x4 x5 x6 x7 x8 x9 x10 r k).trans (affineBiasSecond_eq _ _ _ _ _ _ _)
  rw [hrow]
  rfl

end Cert.ReferenceIdeal.RefValue

end
-- ==== Proof.lean ====
/-
  One layer of directed message passing: the kernel against its reference, over the extended reals.

  Both programs first aggregate the node features along the edges in and along the edges out (a gather of feature
  rows, a product with the edge values, a scatter-add into 50000 rows), by the same host operations.  The reference
  then forms, for every node, the row  x·Wₛᵀ + b + aᵢ·Wᵢᵀ + aₒ·Wₒᵀ  and normalises it over its 128 entries: mean off,
  times the reciprocal root of the variance plus a constant, times a scale, plus a shift, clipped below at zero.
  The kernel does the same on blocks of 2000 nodes, with the bias added last instead of second and with its
  operands narrowed to a shorter float format before the products.  Over the extended reals a change of format is
  the identity, a product into a zero accumulator is the plain sum over the contracted index, and addition is
  commutative and associative whatever its summands: so the two rows before normalisation are equal, and from
  there on the two programs apply the same operations with the same constants.  No finiteness of the inputs is
  used: the equality holds entry by entry for arbitrary extended reals.

  Proof/Spec.lean       the layer's row function and the two groupings of its four summands
  Proof/KernelRow.lean  the kernel body's stored value at an entry is the row function of that row
  Proof/KernelArray.lean from what each grid point writes back to the whole result array
  Proof/HostStages.lean the arrays the kernel's region finds, as the reference's stages of the arguments
  Proof/Bridge.lean     the kernel's result array as a function of the arguments
  Proof/RefValue.lean   the reference's result array is the same function
  The kernel's frames and its blockwise value leg, and the reference's run and its stages read at an index, are
  the generated modules under Proof/Gen.
-/
import proofs.«152484_j65807488909810_1_alg».proof.Defs
import proofs.«152484_j65807488909810_1_alg».proof.Proof.Gen.Kernel
import proofs.«152484_j65807488909810_1_alg».proof.Proof.Gen.Kernel.Skeleton
import proofs.«152484_j65807488909810_1_alg».proof.Proof.Gen.Kernel.Launch
import proofs.«152484_j65807488909810_1_alg».proof.Proof.Gen.Kernel.Points
import proofs.«152484_j65807488909810_1_alg».proof.Proof.Gen.Kernel.Frame
import proofs.«152484_j65807488909810_1_alg».proof.Proof.Gen.KernelIdeal
import proofs.«152484_j65807488909810_1_alg».proof.Proof.Gen.KernelIdeal.Skeleton
import proofs.«152484_j65807488909810_1_alg».proof.Proof.Gen.KernelIdeal.Launch
import proofs.«152484_j65807488909810_1_alg».proof.Proof.Gen.KernelIdeal.Points
import proofs.«152484_j65807488909810_1_alg».proof.Proof.Gen.KernelIdeal.Frame
import proofs.«152484_j65807488909810_1_alg».proof.Proof.Gen.ReferenceIdeal
import proofs.«152484_j65807488909810_1_alg».proof.Proof.Gen.Pre_finite_inputs
import proofs.«152484_j65807488909810_1_alg».proof.Proof.Gen.KernelIdeal.Value
import proofs.«152484_j65807488909810_1_alg».proof.Proof.Gen.ReferenceIdeal.Run
import proofs.«152484_j65807488909810_1_alg».proof.Proof.Gen.ReferenceIdeal.Read
import proofs.«152484_j65807488909810_1_alg».proof.Proof.Bridge
import proofs.«152484_j65807488909810_1_alg».proof.Proof.RefValue
import Idealize.ShloMosaic.Adequacy
import Idealize.ShloMosaic.Init

noncomputable section

namespace Cert.Proof

open Idealize.ShloMosaic Idealize.SL.Sem Cert.Kernel

/-- The kernel at the word level runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are the layer's function of the same
    features, aggregates, transposed weights and vectors. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  show Cert.ReferenceIdeal.Value.res_main_v61 m' c = Cert.KernelIdeal.Whole.result m c
  rw [Cert.ReferenceIdeal.Read.val_main_v61_eq, Cert.ReferenceIdeal.RefValue.result_eq,
    Cert.KernelIdeal.Bridge.result_stages, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
